-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x800000 32 := (extractStridedSlice S1x800000 ![1, 0] · slices_S2x800000_S1x800000_1_0) main_arg1
  let main_v20 : IVec S800000 32 := shapeCast S800000 main_v19 shapeCasts_S1x800000_S800000
  let main_c_6 : IVec S_ 32 := constantI S_ 32 0#32
  let main_v21 : IVec S800000 32 := broadcastInDim S800000 ![] bcast_S_S800000 main_c_6
  let main_v22 : IVec S800000 1 := cmpi .sge main_v20 main_v21
  let main_c_7 : IVec S_ 1 := constantI S_ 1 1#1
  let main_v23 : IVec S_ 1 := (fun x v => Host.reduce IntOp.andi x v reducesTo_S800000_S_d0 h_S_) main_v22 main_c_7
  let main_v24 : IVec S_ 1 := andi main_v18 main_v23
  main_v24

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 43
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .i32⟩
  | .hbm, ⟨23, _⟩ => ⟨S50000, .i32⟩
  | .hbm, ⟨24, _⟩ => ⟨S_, .i32⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S_, .i32⟩
  | .hbm, ⟨37, _⟩ => ⟨S800000, .i32⟩
  | .hbm, ⟨38, _⟩ => ⟨S50000, .i32⟩
  | .hbm, ⟨39, _⟩ => ⟨S50000, .f32⟩
  | .hbm, ⟨40, _⟩ => ⟨S50000x1, .f32⟩
  | .hbm, ⟨41, _⟩ => ⟨S1x128, .f32⟩
  | .hbm, ⟨42, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mean-aggregating graph layer, index by index, over the extended reals.

  Given the per-node neighbour sums `S` (one row of 128 features per node), the per-node neighbour counts `D`, the node
  features `X`, two 128 × 128 weight matrices and a bias row, node `r`'s output feature `c` is

      ∑ₖ (S r k / max (D r) 1) · Wl k c  +  ∑ₖ X r k · Wr k c  +  b c.

  Both programs compute exactly this, in this association; they differ only in how they obtain `D`.
-/
import Idealize.ShloMosaic.PureOps.Ideal
import Idealize.ShloMosaic.Lib.ValueIdx

noncomputable section

namespace Cert.Sage

open Idealize.ShloMosaic Idealize.ShloMosaic.ValueIdx

/-- The float `1.0`, kept as its word: both programs carry the same one, so it is never evaluated. -/
abbrev one : EReal := Ideal.ofBits .f32 0x3F800000#32

/-- Output feature `c` of node `r`. -/
def layerAt (S : (⟨2, ![50000, 128]⟩ : Shape).Idx → EReal) (D : (⟨1, ![50000]⟩ : Shape).Idx → EReal)
    (X : (⟨2, ![50000, 128]⟩ : Shape).Idx → EReal) (Wl Wr : (⟨2, ![128, 128]⟩ : Shape).Idx → EReal)
    (b : (⟨1, ![128]⟩ : Shape).Idx → EReal) (r : Fin 50000) (c : Fin 128) : EReal :=
  (∑ k : Fin 128, Ideal.div (S (ix2 r k)) (max (D (ix1 r)) one) * Wl (ix2 k c))
    + (∑ k : Fin 128, X (ix2 r k) * Wr (ix2 k c))
    + b (ix1 c)

/-- The layer's whole output array. -/
def layer (S : (⟨2, ![50000, 128]⟩ : Shape).Idx → EReal) (D : (⟨1, ![50000]⟩ : Shape).Idx → EReal)
    (X : (⟨2, ![50000, 128]⟩ : Shape).Idx → EReal) (Wl Wr : (⟨2, ![128, 128]⟩ : Shape).Idx → EReal)
    (b : (⟨1, ![128]⟩ : Shape).Idx → EReal) : (⟨2, ![50000, 128]⟩ : Shape).Idx → EReal :=
  fun i => layerAt S D X Wl Wr b ⟨(i 0).val, (i 0).isLt⟩ ⟨(i 1).val, (i 1).isLt⟩

theorem layer_ix2 (S : (⟨2, ![50000, 128]⟩ : Shape).Idx → EReal) (D : (⟨1, ![50000]⟩ : Shape).Idx → EReal)
    (X : (⟨2, ![50000, 128]⟩ : Shape).Idx → EReal) (Wl Wr : (⟨2, ![128, 128]⟩ : Shape).Idx → EReal)
    (b : (⟨1, ![128]⟩ : Shape).Idx → EReal) (r : Fin 50000) (c : Fin 128) :
    layer S D X Wl Wr b (ix2 r c) = layerAt S D X Wl Wr b r c := rfl

end Cert.Sage

end
-- ==== Proof.KernelPayload.lean ====
/-
  The kernel body's stored value at one element of its block.

  The body divides its block of neighbour sums by `max(count, 1)` (the count column broadcast along the features),
  multiplies the quotient and its block of node features by the two resident weight matrices on the matrix unit (each
  into a zero accumulator, so each is the plain sum over the 128 input features), adds the two products, and adds the bias
  row broadcast down the block's rows.
-/
import proofs.«413500_j28647431864953_2_alg».proof.Proof.Gen.KernelIdeal.Skeleton
import proofs.«413500_j28647431864953_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.KernelIdeal.Facts₀

/-! ### The block-sized matrix product, read at an element -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a resident 128 × 128 matrix into a zero accumulator: at row `p`, column `q`, the sum over the
    128 contracted features of the products. -/
theorem product_apply (l : FVec Ideal S10000x128 .f32) (r : FVec Ideal S128x128 .f32) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ### The two broadcasts, read at an element -/

/-- The count column broadcast along the features: row `p`'s entry, whatever the feature. -/
theorem column_apply (d : FVec Ideal S10000x1 .f32) (p : Fin 10000) (k : Fin 128) :
    broadcastTo S10000x128 d Facts₀.broadcasts_S10000x1_S10000x128 (ix2 p k) = d (ix2 p 0) :=
  broadcastTo_apply d Facts₀.broadcasts_S10000x1_S10000x128 (ix2 p k) (ix2 p 0) (fun a => by
    match a with
    | ⟨0, _⟩ => show p.val = if (10000 : Nat) = 1 then 0 else p.val; rw [if_neg (by decide)]
    | ⟨1, _⟩ => show 0 = if (1 : Nat) = 1 then 0 else k.val; rw [if_pos rfl])

/-- The bias row broadcast down the rows: column `q`'s entry, whatever the row. -/
theorem row_apply (b : FVec Ideal S1x128 .f32) (p : Fin 10000) (q : Fin 128) :
    broadcastTo S10000x128 b Facts₀.broadcasts_S1x128_S10000x128 (ix2 p q) = b (ix2 0 q) :=
  broadcastTo_apply b Facts₀.broadcasts_S1x128_S10000x128 (ix2 p q) (ix2 0 q) (fun a => by
    match a with
    | ⟨0, _⟩ => show 0 = if (1 : Nat) = 1 then 0 else p.val; rw [if_pos rfl]
    | ⟨1, _⟩ => show q.val = if (128 : Nat) = 1 then 0 else q.val; rw [if_neg (by decide)])

/-! ### The stored value -/

/-- The body's stored value at row `p`, column `q` of its block, from the blocks it loaded: the count column `v0`, the
    neighbour sums `v4`, the node features `v10`, the two weight matrices `v8`, `v11` and the bias row `v14`. -/
theorem stored_apply (v0 : Vec Ideal S10000x1 .f32) (v4 : Vec Ideal S10000x128 .f32) (v8 : Vec Ideal S128x128 .f32)
    (v10 : Vec Ideal S10000x128 .f32) (v11 : Vec Ideal S128x128 .f32) (v14 : Vec Ideal S1x128 .f32) (p : Fin 10000) (q : Fin 128) :
    k0_pay1 (F := Ideal) v0 v4 v8 v10 v11 v14 (ix2 p q)
      = (∑ k : Fin 128, Ideal.div (v4 (ix2 p k)) (max (v0 (ix2 p 0)) Cert.Sage.one) * v8 (ix2 k q))
        + (∑ k : Fin 128, v10 (ix2 p k) * v11 (ix2 k q))
        + v14 (ix2 0 q) := by
  unfold k0_pay1
  simp only [shapeCast_self]
  rw [addf_apply, addf_apply, product_apply, product_apply, row_apply]
  simp only [divf_apply, column_apply, maximumf_apply, broadcast_apply]
  rfl

end Cert.KernelIdeal.Body

end
-- ==== Proof.KernelValue.lean ====
/-
  The kernel's output array is the layer of the arrays its region finds.

  The grid has five points; point `t` works on rows `10000·t … 10000·t + 9999` of the neighbour sums, the count column and
  the node features, on the whole of both weight matrices and of the bias row, and writes back rows
  `10000·t … 10000·t + 9999` of the output.  What it writes is the layer's value at those rows (the body's stored value, read
  at an element), and the five blocks of rows tile the output, so after the run the output is the layer's whole array.
-/
import proofs.«413500_j28647431864953_2_alg».proof.Proof.Gen.KernelIdeal.Value
import proofs.«413500_j28647431864953_2_alg».proof.Proof.KernelPayload
import proofs.«413500_j28647431864953_2_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- A column array as the vector of its entries. -/
def colOf (d : (⟨S50000x1, .f32⟩ : BufTy).Contents (Elt Ideal)) : (⟨1, ![50000]⟩ : Shape).Idx → EReal :=
  fun i => d (ix2 ⟨(i 0).val, (i 0).isLt⟩ 0)

/-- A row array as the vector of its entries. -/
def rowOf (b : (⟨S1x128, .f32⟩ : BufTy).Contents (Elt Ideal)) : (⟨1, ![128]⟩ : Shape).Idx → EReal :=
  fun i => b (ix2 0 ⟨(i 0).val, (i 0).isLt⟩)

/-! ### One point's stored value is the layer at the point's rows -/

/-- If the blocks a point loaded are rows `10000·T …` of the arrays `S`, `Dc`, `X` and the whole of `Wl`, `Wr`, `Br`, the value
    it stores at row `p`, column `q` of its block is the layer at row `10000·T + p`, column `q`. -/
theorem stored_eq_layer (S X : (⟨S50000x128, .f32⟩ : BufTy).Contents (Elt Ideal)) (Dc : (⟨S50000x1, .f32⟩ : BufTy).Contents (Elt Ideal))
    (Wl Wr : (⟨S128x128, .f32⟩ : BufTy).Contents (Elt Ideal)) (Br : (⟨S1x128, .f32⟩ : BufTy).Contents (Elt Ideal))
    (v0 : Vec Ideal S10000x1 .f32) (v4 : Vec Ideal S10000x128 .f32) (v8 : Vec Ideal S128x128 .f32)
    (v10 : Vec Ideal S10000x128 .f32) (v11 : Vec Ideal S128x128 .f32) (v14 : Vec Ideal S1x128 .f32)
    (p : Fin 10000) (q : Fin 128) (R : Fin 50000)
    (h0 : v0 (ix2 p 0) = Dc (ix2 R 0))
    (h4 : ∀ k : Fin 128, v4 (ix2 p k) = S (ix2 R k))
    (h10 : ∀ k : Fin 128, v10 (ix2 p k) = X (ix2 R k))
    (h8 : v8 = Wl) (h11 : v11 = Wr) (h14 : v14 = Br) :
    k0_pay1 (F := Ideal) v0 v4 v8 v10 v11 v14 (ix2 p q)
      = Cert.Sage.layer S (colOf Dc) X Wl Wr (rowOf Br) (ix2 R q) := by
  rw [Cert.KernelIdeal.Body.stored_apply, Cert.Sage.layer_ix2, h0, h8, h11, h14]
  unfold Cert.Sage.layerAt
  refine congrArg₂ (· + ·) (congrArg₂ (· + ·) (Finset.sum_congr rfl fun k _ => ?_) (Finset.sum_congr rfl fun k _ => ?_)) rfl
  · rw [h4 k]; rfl
  · rw [h10 k]

variable (m : (ℓ : Loc nD τ sig) → Buf (Elt Ideal) ℓ) (ρ : Dev nD → PrngReg)

/-- The output array as one function of the arrays the region finds. -/
def G (c : Dev nD) : (⟨S50000x128, .f32⟩ : BufTy).Contents (Elt Ideal) :=
  Cert.Sage.layer (V m c main_v13) (colOf (V m c main_v25)) (V m c main_arg0) (V m c main_arg2) (V m c main_arg3)
    (rowOf (V m c main_v26))

theorem hz : (![0, 0] : Fin 2 → Nat) = fun _ => 0 := funext fun a => by fin_cases a <;> rfl

/-- The printed index maps, decided over the five points: the three row-blocked inputs move with the output, the
    resident inputs stay at block `(0, 0)`, and the output's block index is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Over ANY arrays: the body's stored block, from point `t`'s blocks of the arrays, is point `t`'s block of the layer of
    the arrays.  (The arrays are variables here, so every step is about indices only.) -/
theorem block_eq_layer (S X : (⟨S50000x128, .f32⟩ : BufTy).Contents (Elt Ideal)) (Dc : (⟨S50000x1, .f32⟩ : BufTy).Contents (Elt Ideal))
    (Wl Wr : (⟨S128x128, .f32⟩ : BufTy).Contents (Elt Ideal)) (Br : (⟨S1x128, .f32⟩ : BufTy).Contents (Elt Ideal)) (t : Fin cfg0.N)
    (j : S10000x128.Idx) :
    k0_pay1 (F := Ideal) (((cfg0.win 1).blk t).view.read (Elt Ideal) Dc) (((cfg0.win 0).blk t).view.read (Elt Ideal) S)
        (((cfg0.win 3).blk t).view.read (Elt Ideal) Wl) (((cfg0.win 2).blk t).view.read (Elt Ideal) X)
        (((cfg0.win 4).blk t).view.read (Elt Ideal) Wr) (((cfg0.win 5).blk t).view.read (Elt Ideal) Br) j
      = Cert.Sage.layer S (colOf Dc) X Wl Wr (rowOf Br) (((cfg0.win 6).blk t).view.emb j) := by
  obtain ⟨e00, e01, e10, e11, e20, e21, e30, e31, e40, e41, e50, e51, e60, e61⟩ := idx_facts t
  have ht : t.val < 5 := t.isLt
  obtain ⟨p, q, rfl⟩ : ∃ (p : Fin 10000) (q : Fin 128), j = ix2 p q := ⟨j 0, j 1, eq_ix2 j⟩
  have hR : t.val * 10000 + p.val < 50000 := by have := p.isLt; omega
  have hj : ((cfg0.win 6).blk t).view.emb (ix2 p q) = ix2 (⟨t.val * 10000 + p.val, hR⟩ : Fin 50000) q := by
    funext a; apply Fin.ext
    match a with
    | ⟨0, _⟩ => show win0_6.index t (0 : Fin 2) * 10000 + 1 * p.val = t.val * 10000 + p.val; omega
    | ⟨1, _⟩ => show win0_6.index t (1 : Fin 2) * 128 + 1 * q.val = q.val; omega
  rw [hj]
  refine stored_eq_layer S X Dc Wl Wr Br _ _ _ _ _ _ p q ⟨t.val * 10000 + p.val, hR⟩ ?_ ?_ ?_ ?_ ?_ ?_
  · show Dc (((cfg0.win 1).blk t).view.emb (ix2 p 0)) = Dc _
    refine congrArg Dc (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  · intro k
    show S (((cfg0.win 0).blk t).view.emb (ix2 p k)) = S _
    refine congrArg S (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k
    show X (((cfg0.win 2).blk t).view.emb (ix2 p k)) = X _
    refine congrArg X (funext fun a => Fin.ext ?_)
    match a with
    | ⟨0, _⟩ => show win0_2.index t (0 : Fin 2) * 10000 + 1 * p.val = t.val * 10000 + p.val; omega
    | ⟨1, _⟩ => show win0_2.index t (1 : Fin 2) * 128 + 1 * k.val = k.val; omega
  · funext y
    show Wl (((cfg0.win 3).blk t).view.emb y) = Wl y
    refine congrArg Wl (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show Wr (((cfg0.win 4).blk t).view.emb y) = Wr y
    refine congrArg Wr (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show Br (((cfg0.win 5).blk t).view.emb y) = Br y
    refine congrArg Br (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- Each input window's block at a point is its array, as the region finds it, read through the block (whole arrays
    only: nothing is read at an index). -/
theorem iblk0 (c : Dev nD) (t : Fin cfg0.N) : iblk m c 0 t = ((cfg0.win 0).blk t).view.read (Elt Ideal) (V m c main_v13) := rfl
theorem iblk1 (c : Dev nD) (t : Fin cfg0.N) : iblk m c 1 t = ((cfg0.win 1).blk t).view.read (Elt Ideal) (V m c main_v25) := rfl
theorem iblk2 (c : Dev nD) (t : Fin cfg0.N) : iblk m c 2 t = ((cfg0.win 2).blk t).view.read (Elt Ideal) (V m c main_arg0) := rfl
theorem iblk3 (c : Dev nD) (t : Fin cfg0.N) : iblk m c 3 t = ((cfg0.win 3).blk t).view.read (Elt Ideal) (V m c main_arg2) := rfl
theorem iblk4 (c : Dev nD) (t : Fin cfg0.N) : iblk m c 4 t = ((cfg0.win 4).blk t).view.read (Elt Ideal) (V m c main_arg3) := rfl
theorem iblk5 (c : Dev nD) (t : Fin cfg0.N) : iblk m c 5 t = ((cfg0.win 5).blk t).view.read (Elt Ideal) (V m c main_v26) := rfl

/-- WHAT POINT `t` WRITES BACK is block `t` of `G`. -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S10000x1) hz, View.ld_unit_zero (S := S10000x128) hz,
    View.ld_unit_zero (S := S128x128) hz, View.ld_unit_zero (S := S1x128) hz]
  rw [iblk0, iblk1, iblk2, iblk3, iblk4, iblk5]
  funext j
  exact block_eq_layer (V m c main_v13) (V m c main_arg0) (V m c main_v25) (V m c main_arg2) (V m c main_arg3) (V m c main_v26) t j

/-- An index of the output is in point `t`'s block iff each coordinate is in the block's range on its axis. -/
theorem mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v27).slice (win0_6.rect t)).set ↔ _
  rw [View.set_slice_whole, Rect.mem_set_unit]
  exact Iff.rfl

/-- Every block of rows is some point's. -/
theorem idx_onto : ∀ q0 : Fin 5, ∃ t : Fin cfg0.N, win0_6.index t = ![q0.val, 0] :=
  (by decide +kernel : ∀ q0 : Fin 5, ∃ t : Fin grid0.N, win0_6.index t = ![q0.val, 0])

/-- The five blocks of rows tile the output: row `r` is in the block of point `r / 10000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- THE OUTPUT ARRAY after the run is `G`. -/
theorem final (c : Dev nD) : (dats m 0 c).arrAt 6 cfg0.N = G m c :=
  (dats m 0 c).arrAt_eq_of_cover 6 (G m c) (fun t _ => flushed_eq m c t) cover

end Cert.KernelIdeal.Whole

end
-- ==== Proof.KernelHost.lean ====
/-
  What the kernel's region finds in the arrays the host computed before it.

  Before the region the host gathers the source node's feature row for every edge and scatters it, adding, onto the edge's
  destination node (the neighbour sums); it counts the edges arriving at each node with an INTEGER scatter of ones, after
  clamping the destination at zero from below and wrapping a negative value by the node count, and converts the counts to
  floats as a column; and it lays the bias out as a row.  Each of these arrays, when the region is entered, is that term of
  the program's arguments.
-/
import proofs.«413500_j28647431864953_2_alg».proof.Proof.Gen.KernelIdeal.Frame

noncomputable section

namespace Cert.KernelIdeal.HostValue

open Cert.KernelIdeal Cert.KernelIdeal.Gen Idealize.ShloMosaic Idealize.ShloMosaic.TcCoe Idealize.SL.Sem

variable {F : FTy → Type} [FloatOps F]

/-- Row `0` of the edge list: each edge's source node. -/
def srcOf (e : (⟨S2x800000, .i32⟩ : BufTy).Contents (Elt F)) : (⟨S800000, .i32⟩ : BufTy).Contents (Elt F) :=
  shapeCast _ (extractStridedSlice S1x800000 ![0, 0] e Facts₀.slices_S2x800000_S1x800000_0_0) Facts₀.shapeCasts_S1x800000_S800000

/-- Row `1` of the edge list: each edge's destination node. -/
def dstOf (e : (⟨S2x800000, .i32⟩ : BufTy).Contents (Elt F)) : (⟨S800000, .i32⟩ : BufTy).Contents (Elt F) :=
  shapeCast _ (extractStridedSlice S1x800000 ![1, 0] e Facts₀.slices_S2x800000_S1x800000_1_0) Facts₀.shapeCasts_S1x800000_S800000

/-- A node index with a negative value wrapped by the node count (what indexing with `x[i]` does first). -/
def wrapped (i : (⟨S800000, .i32⟩ : BufTy).Contents (Elt F)) : (⟨S800000, .i32⟩ : BufTy).Contents (Elt F) :=
  select (cmpi .slt i (broadcastInDim S800000 ![] Facts₀.bcast_S_S800000 (constantI S_ 32 0#32)))
    (addi i (broadcastInDim S800000 ![] Facts₀.bcast_S_S800000 (constantI S_ 32 50000#32))) i

/-- The neighbour sums: every edge's source row added onto its destination node. -/
def sums (x : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 (dstOf (F := F) e))
    (Host.gather gather_S50000x128_S800000x1_S800000x128_1_0_n_n_0_1_1128 x
      (broadcastInDim S800000x1 ![0] Facts₀.bcast_S800000_S800000x1_0 (wrapped (F := F) (srcOf (F := F) e))))

/-- The destinations clamped at zero from below. -/
def clamped (e : (⟨S2x800000, .i32⟩ : BufTy).Contents (Elt F)) : (⟨S800000, .i32⟩ : BufTy).Contents (Elt F) :=
  maxsi (broadcastInDim S800000 ![] Facts₀.bcast_S_S800000 (id (constantI S_ 32 0#32))) (dstOf (F := F) e)

/-- The integer histogram of the (clamped, wrapped) destinations. -/
def histogram (e : (⟨S2x800000, .i32⟩ : BufTy).Contents (Elt F)) : (⟨S50000, .i32⟩ : BufTy).Contents (Elt F) :=
  Host.scatter scatter_S50000_S800000x1_S800000_n_0_0_1 IntOp.addi
    (broadcastInDim S50000 ![] Facts₀.bcast_S_S50000 (constantI S_ 32 0#32))
    (broadcastInDim S800000x1 ![0] Facts₀.bcast_S800000_S800000x1_0 (wrapped (F := F) (clamped (F := F) e)))
    (broadcastInDim S800000 ![] Facts₀.bcast_S_S800000 (constantI S_ 32 1#32))

/-- The histogram as a float column. -/
def countColumn (e : (⟨S2x800000, .i32⟩ : BufTy).Contents (Elt F)) : (⟨S50000x1, .f32⟩ : BufTy).Contents (Elt F) :=
  shapeCast _ (sitofp .f32 (histogram (F := F) e) : (⟨S50000, .f32⟩ : BufTy).Contents (Elt F)) Facts₀.shapeCasts_S50000_S50000x1

/-- The bias as a row. -/
def biasRow (b : (⟨S128, .f32⟩ : BufTy).Contents (Elt F)) : (⟨S1x128, .f32⟩ : BufTy).Contents (Elt F) :=
  shapeCast _ b Facts₀.shapeCasts_S128_S1x128

variable (m : (ℓ : Loc nD τ sig) → Buf (Elt F) ℓ)

theorem V_sums (c : Dev nD) :
    (V m c main_v13 : (⟨S50000x128, .f32⟩ : BufTy).Contents (Elt F))
      = sums (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results
  rfl

set_option maxHeartbeats 1000000 in
theorem V_countColumn (c : Dev nD) :
    (V m c main_v25 : (⟨S50000x1, .f32⟩ : BufTy).Contents (Elt F))
      = countColumn (F := F) (m ((c : Thread nD τ).loc main_arg1)) := by
  dsimp only [V]
  simp only [hostOps0, hostOps0_1, hostOps0_2, List.flatten_cons, List.flatten_nil, List.append_nil, List.cons_append,
    List.nil_append]
  after_results_simp
  rfl

theorem V_biasRow (c : Dev nD) :
    (V m c main_v26 : (⟨S1x128, .f32⟩ : BufTy).Contents (Elt F))
      = biasRow (F := F) (m ((c : Thread nD τ).loc main_arg4)) := by
  dsimp only [V]
  simp only [hostOps0, hostOps0_1, hostOps0_2, List.flatten_cons, List.flatten_nil, List.append_nil, List.cons_append,
    List.nil_append]
  after_results
  rfl

end Cert.KernelIdeal.HostValue

end
-- ==== Proof.LibScatterSum.lean ====
/-
  A host scatter whose body is an addition, read at one element.

  `Host.scatter d (· + ·) x idx upd` walks the update elements in row-major order and adds each to the operand element
  its index lands on (an update landing outside the operand is dropped).  Over a commutative monoid the order does not
  matter: element `i` of the result is `x i` plus the sum of the updates landing on `i`.  Two consequences:

  * an INTEGER scatter of ones into zeros COUNTS, at each element, the updates landing on it; and
  * that count, converted to a float, is what the host's accumulating FLOAT scatter of ones into zeros holds at the
    ideal instance (extended reals, exact sums), as long as the number of updates fits a signed 32-bit word.
-/
import Idealize.ShloMosaic.PureOps.Ideal
import Mathlib.Data.BitVec
import Mathlib.Algebra.BigOperators.Fin

noncomputable section

namespace Cert.Lib.ScatterSum

open Idealize.ShloMosaic

variable {α : Type} {s si u : Shape} {w : Nat}

/-- One step of the scatter's walk: the update at row-major position `n` added where it lands. -/
def step [Add α] (d : ScatterDims s si u) (idx : IVec si w) (upd : u.Idx → α) (r : s.Idx → α) (n : Fin u.numel) :
    s.Idx → α :=
  match d.resultIdx? (u.rowMajor.symm n) idx with
  | some i => fun i' => if i' = i then r i + upd (u.rowMajor.symm n) else r i'
  | none => r

theorem scatter_eq_foldl [Add α] (d : ScatterDims s si u) (x : s.Idx → α) (idx : IVec si w) (upd : u.Idx → α) :
    Host.scatter d (· + ·) x idx upd = (List.finRange u.numel).foldl (step d idx upd) x := rfl

/-- What one step does at element `i`: adds the update if it lands on `i`, nothing otherwise. -/
theorem step_apply [AddCommMonoid α] (d : ScatterDims s si u) (idx : IVec si w) (upd : u.Idx → α) (r : s.Idx → α)
    (n : Fin u.numel) (i : s.Idx) :
    step d idx upd r n i
      = r i + (if d.resultIdx? (u.rowMajor.symm n) idx = some i then upd (u.rowMajor.symm n) else 0) := by
  unfold step
  cases h : d.resultIdx? (u.rowMajor.symm n) idx with
  | none => simp
  | some i0 =>
    by_cases hi : i = i0
    · subst hi; simp
    · have hne : ¬ (some i0 = some i) := fun e => hi (Option.some.inj e).symm
      simp [hi, hne]

/-- The walk over any list of update positions, at element `i`. -/
theorem foldl_step_apply [AddCommMonoid α] (d : ScatterDims s si u) (idx : IVec si w) (upd : u.Idx → α)
    (l : List (Fin u.numel)) (x : s.Idx → α) (i : s.Idx) :
    l.foldl (step d idx upd) x i
      = x i + (l.map fun n => if d.resultIdx? (u.rowMajor.symm n) idx = some i then upd (u.rowMajor.symm n) else 0).sum := by
  induction l generalizing x with
  | nil => simp
  | cons a l ih => rw [List.foldl_cons, ih, step_apply, List.map_cons, List.sum_cons, add_assoc]

/-- An additive scatter over a commutative monoid, at element `i`: the operand's element plus the sum of the updates
    whose index lands on `i`. -/
theorem scatter_add_apply [AddCommMonoid α] (d : ScatterDims s si u) (x : s.Idx → α) (idx : IVec si w)
    (upd : u.Idx → α) (i : s.Idx) :
    Host.scatter d (· + ·) x idx upd i
      = x i + ∑ j : u.Idx, if d.resultIdx? j idx = some i then upd j else 0 := by
  rw [scatter_eq_foldl, foldl_step_apply, ← Fin.sum_univ_def]
  congr 1
  exact Equiv.sum_comp u.rowMajor.symm fun j => if d.resultIdx? j idx = some i then upd j else 0

/-- How many updates land on element `i`. -/
def hits (d : ScatterDims s si u) (idx : IVec si w) (i : s.Idx) : ℕ :=
  (Finset.univ.filter fun j : u.Idx => d.resultIdx? j idx = some i).card

theorem hits_le (d : ScatterDims s si u) (idx : IVec si w) (i : s.Idx) : hits d idx i ≤ u.numel := by
  unfold hits
  exact (Finset.card_filter_le _ _).trans (by rw [Finset.card_univ, Shape.card_idx])

/-- An integer scatter of ones into zeros counts the updates landing on each element. -/
theorem scatter_ones_apply (d : ScatterDims s si u) (idx : IVec si w) (i : s.Idx) :
    Host.scatter d IntOp.addi (fun _ => 0#32) idx (fun _ => 1#32) i = BitVec.ofNat 32 (hits d idx i) := by
  change Host.scatter d (· + ·) (fun _ => (0 : BitVec 32)) idx (fun _ => (1 : BitVec 32)) i = _
  rw [scatter_add_apply, ← Finset.sum_filter, Finset.sum_const, zero_add]
  unfold hits
  generalize (Finset.univ.filter fun j : u.Idx => d.resultIdx? j idx = some i).card = k
  rw [nsmul_one, BitVec.natCast_eq_ofNat]

/-- The host's accumulating float scatter of ones into zeros, at the ideal instance, holds that count. -/
theorem hostScatterAdd_ones_apply (d : ScatterDims s si u) (idx : IVec si w) (i : s.Idx) :
    Ideal.hostScatterAdd d (fun _ => (0 : EReal)) idx (fun _ => (1 : EReal)) i = (hits d idx i : EReal) := by
  unfold Ideal.hostScatterAdd hits
  rw [zero_add, Finset.sum_const, nsmul_one]

/-- The counting integer scatter, converted to a float as a signed word, is the float scatter of ones — provided the
    number of updates fits a signed 32-bit word. -/
theorem sitofp_scatter_ones (d : ScatterDims s si u) (idx : IVec si w) (hn : u.numel < 2 ^ 31) (i : s.Idx) :
    (((Host.scatter d IntOp.addi (fun _ => 0#32) idx (fun _ => 1#32) i).toInt : ℝ) : EReal)
      = Ideal.hostScatterAdd d (fun _ => (0 : EReal)) idx (fun _ => (1 : EReal)) i := by
  rw [scatter_ones_apply, hostScatterAdd_ones_apply]
  have hk : hits d idx i < 2 ^ 31 := (hits_le d idx i).trans_lt hn
  generalize hits d idx i = k at hk
  have : (BitVec.ofNat 32 k).toInt = (k : ℤ) := by
    rw [BitVec.toInt_eq_toNat_cond, BitVec.toNat_ofNat]
    have : k % 2 ^ 32 = k := Nat.mod_eq_of_lt (by omega)
    rw [this, if_pos (by omega)]
  rw [this, Int.cast_natCast]
  rfl

end Cert.Lib.ScatterSum

end
-- ==== Proof.Degree.lean ====
/-
  The two programs count a node's incoming edges the same way, when no destination is negative.

  The reference adds a float `1.0` onto each edge's destination node with an accumulating scatter, which drops an edge whose
  destination is outside `0 … 49999`.  The kernel's host code first clamps each destination at zero from below (so a
  negative destination would be counted at node `0`), wraps a negative value by the node count (nothing is negative after the
  clamp), counts with an integer scatter of ones — which drops the same out-of-range edges —, and converts the counts to
  floats.  The precondition says every destination is at least zero; then the clamp and the wrap change nothing, both
  scatters see the same index array, and a count of at most 800000 edges converts exactly.
-/
import proofs.«413500_j28647431864953_2_alg».proof.Proof.Gen.Pre_finite_inputs
import proofs.«413500_j28647431864953_2_alg».proof.Proof.Gen.ReferenceIdeal.Read
import proofs.«413500_j28647431864953_2_alg».proof.Proof.KernelHost
import proofs.«413500_j28647431864953_2_alg».proof.Proof.LibScatterSum
import Idealize.ShloMosaic.Lib.ReduceAll
import Idealize.ShloMosaic.Lib.Affine
import Idealize.ShloMosaic.Lib.IdealHost
import Idealize.ShloMosaic.Lib.ValueIdx
import Idealize.ShloMosaic.Lib.Pipeline.Value

noncomputable section

namespace Cert.Proof.Degree

open Idealize.ShloMosaic Idealize.ShloMosaic.ValueIdx
open Cert.KernelIdeal Cert.KernelIdeal.Gen Cert.KernelIdeal.HostValue

instance : Subsingleton Cert.Pre_finite_inputs.S_.Idx := ⟨fun a b => funext fun d => d.elim0⟩

/-- Under the precondition no edge's destination is negative. -/
theorem dst_nonneg (a0 : (⟨S50000x128, .f32⟩ : BufTy).Contents (Elt Ideal)) (e : (⟨S2x800000, .i32⟩ : BufTy).Contents (Elt Ideal))
    (a2 a3 : (⟨S128x128, .f32⟩ : BufTy).Contents (Elt Ideal)) (a4 : (⟨S128, .f32⟩ : BufTy).Contents (Elt Ideal))
    (h : Cert.Pre_finite_inputs.fn (F := Ideal) a0 e a2 a3 a4 = fun _ => 1#1) (j : S800000.Idx) :
    0 ≤ (dstOf (F := Ideal) e j).toInt := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 j
  exact IntOp.cmpi_sge.1 h2

/-- Clamping non-negative destinations at zero from below changes nothing. -/
theorem clamped_eq (e : (⟨S2x800000, .i32⟩ : BufTy).Contents (Elt Ideal))
    (hd : ∀ j : S800000.Idx, 0 ≤ (dstOf (F := Ideal) e j).toInt) : clamped (F := Ideal) e = dstOf (F := Ideal) e := by
  funext j
  show IntOp.maxsi 0#32 (dstOf (F := Ideal) e j) = dstOf (F := Ideal) e j
  unfold IntOp.maxsi
  rw [if_neg]
  rw [BitVec.slt_iff_toInt_lt]
  have := hd j
  have z : (0#32 : BitVec 32).toInt = 0 := by decide
  omega

/-- Wrapping a negative index by the node count changes nothing where no index is negative. -/
theorem wrapped_eq (i : (⟨S800000, .i32⟩ : BufTy).Contents (Elt Ideal)) (hi : ∀ j : S800000.Idx, 0 ≤ (i j).toInt) :
    wrapped (F := Ideal) i = i := by
  funext j
  show Scalar.select (IntOp.cmpi .slt (i j) 0#32) (IntOp.addi (i j) 50000#32) (i j) = i j
  unfold Scalar.select
  rw [if_neg]
  intro hc
  have := IntOp.cmpi_slt.1 hc
  have z : (0#32 : BitVec 32).toInt = 0 := by decide
  have := hi j
  omega

/-- So the kernel's histogram is the integer scatter of ones at the destinations themselves. -/
theorem histogram_eq (e : (⟨S2x800000, .i32⟩ : BufTy).Contents (Elt Ideal))
    (hd : ∀ j : S800000.Idx, 0 ≤ (dstOf (F := Ideal) e j).toInt) :
    histogram (F := Ideal) e
      = Host.scatter scatter_S50000_S800000x1_S800000_n_0_0_1 IntOp.addi (fun _ => 0#32)
          (broadcastInDim S800000x1 ![0] Facts₀.bcast_S800000_S800000x1_0 (dstOf (F := Ideal) e)) (fun _ => 1#32) := by
  unfold histogram
  rw [clamped_eq e hd, wrapped_eq _ hd]
  rfl

/-- The reference's index array for its count scatter is the destinations as a column. -/
theorem ref_index (e : (⟨S2x800000, .i32⟩ : BufTy).Contents (Elt Ideal)) :
    broadcastInDim S800000x1 ![0] Facts₀.bcast_S800000_S800000x1_0 (dstOf (F := Ideal) e)
      = Cert.ReferenceIdeal.Read.val_main_v16 (F := Ideal) e := rfl

/-- The two programs' dimension records for the count scatter are one record. -/
theorem dims_eq : scatter_S50000_S800000x1_S800000_n_0_0_1 = Cert.ReferenceIdeal.scatter_S50000_S800000x1_S800000_n_0_0_1 := rfl

/-- The reference's counts, as the ideal instance's accumulating scatter (a whole array; nothing is read at an index). -/
theorem ref_counts (e : (⟨S2x800000, .i32⟩ : BufTy).Contents (Elt Ideal)) :
    Cert.ReferenceIdeal.Read.val_main_v17 (F := Ideal) e
      = Ideal.hostScatterAdd Cert.ReferenceIdeal.scatter_S50000_S800000x1_S800000_n_0_0_1
          (Cert.ReferenceIdeal.Read.val_main_v15 (F := Ideal)) (Cert.ReferenceIdeal.Read.val_main_v16 (F := Ideal) e)
          (Cert.ReferenceIdeal.Read.val_main_v14 (F := Ideal)) := rfl

theorem ref_zeros : Cert.ReferenceIdeal.Read.val_main_v15 (F := Ideal) = fun _ : S50000.Idx => (0 : EReal) := by
  funext i; exact Ideal.ofBits_zero_f32

theorem ref_ones : Cert.ReferenceIdeal.Read.val_main_v14 (F := Ideal) = fun _ : S800000.Idx => (1 : EReal) := by
  funext i; exact Ideal.ofBits_one_f32

theorem edges_fit : S800000.numel < 2 ^ 31 := by
  rw [Shape.numel_rank1]
  show (800000 : ℕ) < 2 ^ 31
  norm_num

/-- The integer histogram of the destinations themselves, converted to floats, is the reference's count array. -/
theorem converted_eq (e : (⟨S2x800000, .i32⟩ : BufTy).Contents (Elt Ideal)) :
    (sitofp .f32 (Host.scatter scatter_S50000_S800000x1_S800000_n_0_0_1 IntOp.addi (fun _ => 0#32)
        (broadcastInDim S800000x1 ![0] Facts₀.bcast_S800000_S800000x1_0 (dstOf (F := Ideal) e)) (fun _ => 1#32))
      : FVec Ideal S50000 .f32)
      = Cert.ReferenceIdeal.Read.val_main_v17 (F := Ideal) e := by
  rw [ref_counts, ref_zeros, ref_ones, ← ref_index, ← dims_eq]
  funext i
  exact Cert.Lib.ScatterSum.sitofp_scatter_ones _ _ edges_fit i

/-- The kernel's count column holds, at node `r`, what the reference's float scatter of ones holds there. -/
theorem count_eq (e : (⟨S2x800000, .i32⟩ : BufTy).Contents (Elt Ideal))
    (hd : ∀ j : S800000.Idx, 0 ≤ (dstOf (F := Ideal) e j).toInt) (r : Fin 50000) :
    countColumn (F := Ideal) e (ix2 r 0) = Cert.ReferenceIdeal.Read.val_main_v17 (F := Ideal) e (ix1 r) := by
  unfold countColumn
  rw [histogram_eq e hd, converted_eq]
  exact shapeCast_apply _ Facts₀.shapeCasts_S50000_S50000x1 (ix2 r 0) (ix1 r)
    (by rewrite [Shape.rowMajor_val_two, Shape.rowMajor_val_one]; show r.val = r.val * 1 + 0; omega)

end Cert.Proof.Degree

end
-- ==== Proof.RefValue.lean ====
/-
  The reference's result is the layer of its own neighbour sums and neighbour counts.

  Reading the reference's last stages at an index: the two matrix products are sums over the 128 input features, the
  quotient is taken element by element against the count column broadcast along the features, and the bias row is
  broadcast down the nodes.  The neighbour sums and counts themselves (the two accumulating scatters) are left as they
  are: the kernel's side is compared with them as whole arrays.
-/
import proofs.«413500_j28647431864953_2_alg».proof.Proof.Gen.ReferenceIdeal.Read
import proofs.«413500_j28647431864953_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

theorem result_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v28 (F := Ideal) x0 x1 x2 x3 x4
      = Cert.Sage.layer (val_main_v13 (F := Ideal) x0 x1) (val_main_v17 (F := Ideal) x1) x0 x2 x3 x4 := by
  funext i
  obtain ⟨r, c, rfl⟩ : ∃ (r : Fin 50000) (c : Fin 128), i = ix2 r c := ⟨i 0, i 1, eq_ix2 i⟩
  have el (k : Fin 128) : lidx_main_v23 (ix2 r c) k = ix2 r k := funext fun a => Fin.ext (by
    match a with | ⟨0, _⟩ => rfl | ⟨1, _⟩ => rfl)
  have er (k : Fin 128) : ridx_main_v23 (ix2 r c) k = ix2 k c := funext fun a => Fin.ext (by
    match a with | ⟨0, _⟩ => rfl | ⟨1, _⟩ => rfl)
  have el' (k : Fin 128) : lidx_main_v24 (ix2 r c) k = ix2 r k := funext fun a => Fin.ext (by
    match a with | ⟨0, _⟩ => rfl | ⟨1, _⟩ => rfl)
  have er' (k : Fin 128) : ridx_main_v24 (ix2 r c) k = ix2 k c := funext fun a => Fin.ext (by
    match a with | ⟨0, _⟩ => rfl | ⟨1, _⟩ => rfl)
  have ed (k : Fin 128) : idx_main_v20 (idx_main_v21 (ix2 r k)) = ix1 r := funext fun a => Fin.ext (by
    match a with | ⟨0, _⟩ => rfl)
  have eb : idx_main_v26 (idx_main_v27 (ix2 r c)) = ix1 c := funext fun a => Fin.ext (by
    match a with | ⟨0, _⟩ => rfl)
  rw [Cert.Sage.layer_ix2, val_main_v28_apply, val_main_v25_apply, val_main_v23_apply, val_main_v24_apply,
    val_main_v27_apply, val_main_v26_apply, eb, Ideal.addf_def, Ideal.addf_def]
  unfold Cert.Sage.layerAt
  refine congrArg₂ (· + ·) (congrArg₂ (· + ·) (Finset.sum_congr rfl fun k _ => ?_) (Finset.sum_congr rfl fun k _ => ?_)) rfl
  · rw [el, er, val_main_v22_apply, val_main_v21_apply, val_main_v20_apply, ed, val_main_v19_apply, val_main_v18_apply,
      val_main_cst_3_apply, Ideal.hostDivf_def, Ideal.maximumf_def, Ideal.ofBits_def]
  · rw [el', er']

end Cert.ReferenceIdeal.RefValue

end
-- ==== Proof.Bridge.lean ====
/-
  The kernel's output array, as a function of the program's arguments, is the reference's.

  The region finds the neighbour sums the reference also computes (the same gather and accumulating scatter of the same
  arguments), the count column, which under the precondition holds the reference's counts, the node features and weights
  as launched, and the bias laid out as a row.  The layer of these is the layer the reference's last stages compute.
-/
import proofs.«413500_j28647431864953_2_alg».proof.Proof.KernelValue
import proofs.«413500_j28647431864953_2_alg».proof.Proof.Degree
import proofs.«413500_j28647431864953_2_alg».proof.Proof.RefValue

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.HostValue Cert.KernelIdeal.Whole

/-- A gather at equal dimension records and equal index arrays. -/
theorem gather_congr {s si t : Shape} {w : Nat} (d d' : GatherDims s si t) (hd : d = d') (x : s.Idx → EReal)
    (idx idx' : IVec si w) (hi : idx = idx') : Host.gather d x idx = Host.gather d' x idx' := by
  subst hd hi; rfl

/-- An accumulating float scatter at equal dimension records, operands, index arrays and updates. -/
theorem scatterAdd_congr {s si u : Shape} {w : Nat} (d d' : ScatterDims s si u) (hd : d = d')
    (x x' : FVec Ideal s .f32) (hx : x = x') (idx idx' : IVec si w) (hi : idx = idx')
    (upd upd' : FVec Ideal u .f32) (hu : upd = upd') :
    Host.scatterAdd d x idx upd = Host.scatterAdd d' x' idx' upd' := by
  subst hd hx hi hu; rfl

/-- The two programs wrap and lay out the edge sources the same way. -/
theorem src_index (e : (⟨S2x800000, .i32⟩ : BufTy).Contents (Elt Ideal)) :
    broadcastInDim S800000x1 ![0] Facts₀.bcast_S800000_S800000x1_0 (wrapped (F := Ideal) (srcOf (F := Ideal) e))
      = Cert.ReferenceIdeal.Read.val_main_v9 (F := Ideal) e := rfl

/-- The two programs lay out the edge destinations the same way. -/
theorem dst_index (e : (⟨S2x800000, .i32⟩ : BufTy).Contents (Elt Ideal)) :
    broadcastInDim S800000x1 ![0] Facts₀.bcast_S800000_S800000x1_0 (dstOf (F := Ideal) e)
      = Cert.ReferenceIdeal.Read.val_main_v12 (F := Ideal) e := rfl

theorem zeros_eq :
    (broadcastInDim S50000x128 ![] Facts₀.bcast_S_S50000x128 (constant (F := Ideal) S_ .f32 0x00000000#32) : FVec Ideal S50000x128 .f32)
      = Cert.ReferenceIdeal.Read.val_main_v11 (F := Ideal) := rfl

theorem gather_dims_eq : gather_S50000x128_S800000x1_S800000x128_1_0_n_n_0_1_1128
    = Cert.ReferenceIdeal.gather_S50000x128_S800000x1_S800000x128_1_0_n_n_0_1_1128 := rfl

theorem scatter_dims_eq : scatter_S50000x128_S800000x1_S800000x128_1_0_0_1
    = Cert.ReferenceIdeal.scatter_S50000x128_S800000x1_S800000x128_1_0_0_1 := rfl

/-- The kernel's neighbour sums are the reference's: the same gather and the same accumulating scatter of the same
    arguments. -/
theorem sums_eq (x : (⟨S50000x128, .f32⟩ : BufTy).Contents (Elt Ideal)) (e : (⟨S2x800000, .i32⟩ : BufTy).Contents (Elt Ideal)) :
    sums (F := Ideal) x e = Cert.ReferenceIdeal.Read.val_main_v13 (F := Ideal) x e := by
  unfold sums Cert.ReferenceIdeal.Read.val_main_v13 Cert.ReferenceIdeal.Read.val_main_v10
  exact scatterAdd_congr _ _ scatter_dims_eq _ _ zeros_eq _ _ (dst_index e) _ _
    (gather_congr _ _ gather_dims_eq x _ _ (src_index e))

/-- The bias laid out as a row, read back as a vector, is the bias. -/
theorem rowOf_biasRow (b : (⟨S128, .f32⟩ : BufTy).Contents (Elt Ideal)) : rowOf (biasRow (F := Ideal) b) = b := by
  funext i
  obtain ⟨q, rfl⟩ : ∃ q : Fin 128, i = ix1 q := ⟨i 0, eq_ix1 i⟩
  unfold rowOf biasRow
  exact shapeCast_apply b Facts₀.shapeCasts_S128_S1x128 (ix2 0 q) (ix1 q)
    (by rewrite [Shape.rowMajor_val_two, Shape.rowMajor_val_one]; show q.val = 0 * 128 + q.val; omega)

/-- The count column, read back as a vector, is the reference's counts when no destination is negative. -/
theorem colOf_countColumn (e : (⟨S2x800000, .i32⟩ : BufTy).Contents (Elt Ideal))
    (hd : ∀ j : S800000.Idx, 0 ≤ (dstOf (F := Ideal) e j).toInt) :
    colOf (countColumn (F := Ideal) e) = Cert.ReferenceIdeal.Read.val_main_v17 (F := Ideal) e := by
  funext i
  obtain ⟨r, rfl⟩ : ∃ r : Fin 50000, i = ix1 r := ⟨i 0, eq_ix1 i⟩
  exact Cert.Proof.Degree.count_eq e hd r

variable (m : (ℓ : Loc nD τ sig) → Buf (Elt Ideal) ℓ)

/-- Under the precondition the kernel's output array is the layer of the reference's own sums and counts. -/
theorem G_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    G m c = Cert.Sage.layer
      (Cert.ReferenceIdeal.Read.val_main_v13 (F := Ideal) (m ((c : Thread nD τ).loc main_arg0)) (m ((c : Thread nD τ).loc main_arg1)))
      (Cert.ReferenceIdeal.Read.val_main_v17 (F := Ideal) (m ((c : Thread nD τ).loc main_arg1)))
      (m ((c : Thread nD τ).loc main_arg0)) (m ((c : Thread nD τ).loc main_arg2)) (m ((c : Thread nD τ).loc main_arg3))
      (m ((c : Thread nD τ).loc main_arg4)) := by
  have hd := Cert.Proof.Degree.dst_nonneg _ _ _ _ _ hpre
  unfold G
  rw [V_sums (F := Ideal) m c, V_countColumn (F := Ideal) m c, V_biasRow (F := Ideal) m c, V_main_arg0, V_main_arg2, V_main_arg3,
    sums_eq, colOf_countColumn _ hd, rowOf_biasRow]

end Cert.Proof.Bridge

end
-- ==== Proof.lean ====
/-
  A mean-aggregating graph layer: for 50000 nodes with 128 features and 800000 directed edges,

      out[i] = mean over the edges j → i of x[j] · W_l  +  x[i] · W_r  +  b,

  where a node with no incoming edge takes the mean of nothing to be zero (the sum is divided by `max(count, 1)`).

  Both programs gather the source row of every edge and add it onto the edge's destination node with the same accumulating
  scatter.  They count a node's incoming edges differently: the reference adds a float one per edge with another
  accumulating scatter; the kernel's host code builds an integer histogram of the destinations (after clamping them at zero
  from below) and converts it to floats.  Over the extended reals the two counts agree exactly when no destination is
  negative — a negative destination is dropped by the reference's scatter and counted at node zero by the clamp — and that
  is what the precondition adds to the finiteness of the float inputs: every destination index is at least zero, the part
  of "the index is in range of the array it indexes" on which the two programs differ (an index past the last node is
  dropped by both scatters alike).  The rest is the same arithmetic in the same association: the kernel divides, multiplies
  by the two weight matrices on the matrix unit block of rows by block of rows, and adds the bias; the reference does so
  on whole arrays.  No law of the extended reals beyond `0 + x = x` is used, so finiteness is never opened.

  The three frames are the generated ones (the reference's is its generated run with the result dropped); nothing was
  rewritten by the idealization, so `preserves` is trivial.
-/
import proofs.«413500_j28647431864953_2_alg».proof.Defs
import proofs.«413500_j28647431864953_2_alg».proof.Proof.Gen.Kernel
import proofs.«413500_j28647431864953_2_alg».proof.Proof.Gen.Kernel.Skeleton
import proofs.«413500_j28647431864953_2_alg».proof.Proof.Gen.Kernel.Launch
import proofs.«413500_j28647431864953_2_alg».proof.Proof.Gen.Kernel.Points
import proofs.«413500_j28647431864953_2_alg».proof.Proof.Gen.Kernel.Frame
import proofs.«413500_j28647431864953_2_alg».proof.Proof.Gen.KernelIdeal
import proofs.«413500_j28647431864953_2_alg».proof.Proof.Gen.KernelIdeal.Skeleton
import proofs.«413500_j28647431864953_2_alg».proof.Proof.Gen.KernelIdeal.Launch
import proofs.«413500_j28647431864953_2_alg».proof.Proof.Gen.KernelIdeal.Points
import proofs.«413500_j28647431864953_2_alg».proof.Proof.Gen.KernelIdeal.Frame
import proofs.«413500_j28647431864953_2_alg».proof.Proof.Gen.KernelIdeal.Value
import proofs.«413500_j28647431864953_2_alg».proof.Proof.Gen.ReferenceIdeal
import proofs.«413500_j28647431864953_2_alg».proof.Proof.Gen.ReferenceIdeal.Run
import proofs.«413500_j28647431864953_2_alg».proof.Proof.Gen.ReferenceIdeal.Read
import proofs.«413500_j28647431864953_2_alg».proof.Proof.Gen.Pre_finite_inputs
import proofs.«413500_j28647431864953_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the reference's own neighbour sums and counts: the kernel's output array is that
    layer block of rows by block of rows (under the precondition, which makes its counts the reference's), and the
    reference's last stages compute it on whole arrays. -/
theorem algebraic : Cert.algebraic_KernelIdeal_ReferenceIdeal := by
  intro m ρ m' ρ' hpre hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.ReferenceIdeal.RefValue.result_eq, (hagree c).1,
      (hagree c).2.1, (hagree c).2.2.1, (hagree c).2.2.2.1, (hagree c).2.2.2.2]
    exact (Cert.Proof.Bridge.G_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
